-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S5000x128 : Shape := ⟨2, ![5000, 128]⟩

abbrev nBuf : Space → Nat
  | .hbm => 46
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S128x128, .f32⟩
  | .hbm, ⟨26, _⟩ => ⟨S128x128, .f32⟩
  | .hbm, ⟨27, _⟩ => ⟨S1x128, .f32⟩
  | .hbm, ⟨28, _⟩ => ⟨S100000x128, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x128, .f32⟩
  | .hbm, ⟨38, _⟩ => ⟨S_, .f32⟩
  | .hbm, ⟨39, _⟩ => ⟨S100000x128, .f32⟩
  | .hbm, ⟨40, _⟩ => ⟨S1600000x1, .i32⟩
  | .hbm, ⟨41, _⟩ => ⟨S100000x128, .f32⟩
  | .hbm, ⟨42, _⟩ => ⟨S128x128, .f32⟩
  | .hbm, ⟨43, _⟩ => ⟨S128x128, .f32⟩
  | .hbm, ⟨44, _⟩ => ⟨S1x128, .f32⟩
  | .hbm, ⟨45, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_1 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v27) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 57
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S128x128, .f32⟩
  | .hbm, ⟨26, _⟩ => ⟨S100000x128, .f32⟩
  | .hbm, ⟨27, _⟩ => ⟨S128x128, .f32⟩
  | .hbm, ⟨28, _⟩ => ⟨S100000x128, .f32⟩
  | .hbm, ⟨29, _⟩ => ⟨S100000x128, .f32⟩
  | .hbm, ⟨30, _⟩ => ⟨S1x128, .f32⟩
  | .hbm, ⟨31, _⟩ => ⟨S100000x128, .f32⟩
  | .hbm, ⟨32, _⟩ => ⟨S100000x128, .f32⟩
  | .hbm, ⟨33, _⟩ => ⟨S_, .f32⟩
  | .hbm, ⟨34, _⟩ => ⟨S100000x128, .f32⟩
  | .hbm, ⟨35, _⟩ => ⟨S100000x128, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x128, .f32⟩
  | .hbm, ⟨45, _⟩ => ⟨S_, .f32⟩
  | .hbm, ⟨46, _⟩ => ⟨S100000x128, .f32⟩
  | .hbm, ⟨47, _⟩ => ⟨S1600000x1, .i32⟩
  | .hbm, ⟨48, _⟩ => ⟨S100000x128, .f32⟩
  | .hbm, ⟨49, _⟩ => ⟨S128x128, .f32⟩
  | .hbm, ⟨50, _⟩ => ⟨S100000x128, .f32⟩
  | .hbm, ⟨51, _⟩ => ⟨S128x128, .f32⟩
  | .hbm, ⟨52, _⟩ => ⟨S100000x128, .f32⟩
  | .hbm, ⟨53, _⟩ => ⟨S100000x128, .f32⟩
  | .hbm, ⟨54, _⟩ => ⟨S1x128, .f32⟩
  | .hbm, ⟨55, _⟩ => ⟨S100000x128, .f32⟩
  | .hbm, ⟨56, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_cst : Ref sig .tc := ⟨.hbm, 33, rfl⟩
abbrev main_call0_v0 : Ref sig .tc := ⟨.hbm, 34, rfl⟩
abbrev main_v22 : Ref sig .tc := ⟨.hbm, 35, rfl⟩
abbrev main_c_1 : Ref sig .tc := ⟨.hbm, 36, rfl⟩
abbrev main_v23 : Ref sig .tc := ⟨.hbm, 37, rfl⟩
abbrev main_v24 : Ref sig .tc := ⟨.hbm, 38, rfl⟩
abbrev main_c_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Payload.lean ====
/-
  THE KERNEL BODIES AT AN ELEMENT, over the extended reals.

  Each body loads a block of 5000 node rows of the neighbourhood sums and of the node features, the two transposed
  weight matrices and the bias as a one-row matrix, and stores one block of the layer's output.  Read at element
  (p, q) of the block, the stored value is

      (Σ_k aggBlock[p, k] · wrelT[k, q]  +  Σ_k hBlock[p, k] · wrootT[k, q])  +  bias[0, q],

  under max(·, 0) in the first layer's body: the narrowing of the operands to bf16 is the identity on extended reals,
  a matrix product accumulated into the zero splat is the plain sum over the contracted axis, and the bias row is
  repeated down the rows.
-/
import proofs.«111352_j63934883168987_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx
open scoped BigOperators

/-! ## The matrix product's operand indices, axis by axis -/

theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A [5000,128] × [128,128] product into the zero splat, at element (p, q): the sum over the contracted axis of row
    `p` of the left operand against column `q` of the right. -/
theorem matmul_at {φ₁ φ₂ : FTy} (l : FVec Ideal S5000x128 φ₁) (r : FVec Ideal S128x128 φ₂) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- The bias row repeated down 5000 rows, at element (p, q): the row's entry `q`. -/
theorem biasRows_at (b : FVec Ideal S1x128 .f32) (p : Fin 5000) (q : Fin 128) :
    broadcastTo S5000x128 b broadcasts_S1x128_S5000x128 (ix2 p q) = b (ix2 (0 : Fin 1) q) :=
  broadcastTo_apply b broadcasts_S1x128_S5000x128 (ix2 p q) (ix2 (0 : Fin 1) q) (fun a => by
    match a with
    | ⟨0, _⟩ => rfl
    | ⟨1, _⟩ => rfl)

/-- The f32 zero word is the extended real 0. -/
theorem zero_word : Scalar.ofBits (F := Ideal) .f32 0x00000000#32 = (0 : EReal) := Ideal.ofBits_zero_f32

/-- The second layer's body at element (p, q). -/
theorem pay1_apply (x0 x1 : Vec Ideal S5000x128 .f32) (x2 x3 : Vec Ideal S128x128 .f32) (x4 : Vec Ideal S1x128 .f32)
    (p : Fin 5000) (q : Fin 128) :
    k1_pay1 (F := Ideal) x0 x1 x2 x3 x4 (ix2 p q)
      = (∑ k : Fin 128, x0 (ix2 p k) * x2 (ix2 k q) + ∑ k : Fin 128, x1 (ix2 p k) * x3 (ix2 k q)) + x4 (ix2 (0 : Fin 1) q) := by
  unfold k1_pay1
  simp only [shapeCast_self]
  rw [addf_apply, addf_apply, matmul_at, matmul_at, biasRows_at]
  rfl

/-- The first layer's body at element (p, q). -/
theorem pay0_apply (x0 x1 : Vec Ideal S5000x128 .f32) (x2 x3 : Vec Ideal S128x128 .f32) (x4 : Vec Ideal S1x128 .f32)
    (p : Fin 5000) (q : Fin 128) :
    k0_pay1 (F := Ideal) x0 x1 x2 x3 x4 (ix2 p q)
      = max ((∑ k : Fin 128, x0 (ix2 p k) * x2 (ix2 k q) + ∑ k : Fin 128, x1 (ix2 p k) * x3 (ix2 k q)) + x4 (ix2 (0 : Fin 1) q)) 0 := by
  unfold k0_pay1
  simp only [shapeCast_self]
  rw [maximumf_apply, addf_apply, addf_apply, matmul_at, matmul_at, biasRows_at, broadcast_apply, zero_word]
  rfl

end Cert.KernelIdeal.Pay

end
-- ==== Proof.Layer.lean ====
/-
  ONE GRAPH-CONVOLUTION LAYER'S DENSE COMBINE, over the extended reals, element by element.

  For a node array `h`, its neighbourhood sums `agg`, two already transposed weight matrices and a bias row,

      out[i, j] = (Σ_k agg[i, k] · wrelT[k, j]  +  Σ_k h[i, k] · wrootT[k, j])  +  b[j],

  the two contractions added first and the bias last: that grouping is the one both programs compute, so no law
  of the extended reals beyond reading each operation at an element is needed to join them.  The first layer
  follows the combine by max(·, 0).  The two layers are composed through a neighbourhood aggregation `aggr`
  (gather the source rows, sum them into the destination rows); both programs compute it by the same two
  operations on the same edge list, so it stays a parameter here.
-/
import Idealize.ShloMosaic.Lib.ValueIdx

noncomputable section

namespace Cert.GraphConv

open Idealize.ShloMosaic Idealize.ShloMosaic.ValueIdx
open scoped BigOperators

/-- A node array: 100000 nodes, 128 features. -/
abbrev Nodes : Shape := ⟨2, ![100000, 128]⟩
/-- A weight matrix. -/
abbrev Square : Shape := ⟨2, ![128, 128]⟩
/-- A bias. -/
abbrev Row : Shape := ⟨1, ![128]⟩

/-- The combine at node `p`, feature `q`. -/
def combineAt (agg h : Nodes.Idx → EReal) (wrelT wrootT : Square.Idx → EReal) (b : Row.Idx → EReal)
    (p : Fin 100000) (q : Fin 128) : EReal :=
  (∑ k : Fin 128, agg (ix2 p k) * wrelT (ix2 k q) + ∑ k : Fin 128, h (ix2 p k) * wrootT (ix2 k q)) + b (ix1 q)

/-- The combine as an array. -/
def combine (agg h : Nodes.Idx → EReal) (wrelT wrootT : Square.Idx → EReal) (b : Row.Idx → EReal) : Nodes.Idx → EReal :=
  fun i => combineAt agg h wrelT wrootT b (i 0) (i 1)

/-- The combine followed by max(·, 0). -/
def combineRelu (agg h : Nodes.Idx → EReal) (wrelT wrootT : Square.Idx → EReal) (b : Row.Idx → EReal) : Nodes.Idx → EReal :=
  fun i => max (combineAt agg h wrelT wrootT b (i 0) (i 1)) 0

/-- Two layers: the first with max(·, 0), the second without, each on the aggregation of its own input. -/
def twoLayer (aggr : (Nodes.Idx → EReal) → Nodes.Idx → EReal) (x : Nodes.Idx → EReal)
    (w1relT w1rootT : Square.Idx → EReal) (b1 : Row.Idx → EReal)
    (w2relT w2rootT : Square.Idx → EReal) (b2 : Row.Idx → EReal) : Nodes.Idx → EReal :=
  combine (aggr (combineRelu (aggr x) x w1relT w1rootT b1)) (combineRelu (aggr x) x w1relT w1rootT b1) w2relT w2rootT b2

theorem combine_apply (agg h : Nodes.Idx → EReal) (wrelT wrootT : Square.Idx → EReal) (b : Row.Idx → EReal)
    (p : Fin 100000) (q : Fin 128) : combine agg h wrelT wrootT b (ix2 p q) = combineAt agg h wrelT wrootT b p q := rfl

theorem combineRelu_apply (agg h : Nodes.Idx → EReal) (wrelT wrootT : Square.Idx → EReal) (b : Row.Idx → EReal)
    (p : Fin 100000) (q : Fin 128) :
    combineRelu agg h wrelT wrootT b (ix2 p q) = max (combineAt agg h wrelT wrootT b p q) 0 := rfl

end Cert.GraphConv

end
-- ==== Proof.RegionValue.lean ====
/-
  WHAT EACH REGION LEAVES IN ITS OUTPUT ARRAY, as one function of the arrays the region finds, over the extended reals.

  A region walks 20 grid points; point `t` stages rows 5000·t … 5000·t + 4999 of the neighbourhood sums and of the node
  features, the whole of both transposed weight matrices and of the one-row bias, runs the body on them and writes the
  block it stored back to rows 5000·t … 5000·t + 4999 of the output array.  Element (p, q) of the body's block at point
  `t` is the layer's combine at node 5000·t + p and feature q, so the 20 write-backs, whose row ranges tile the
  100000 rows, leave the output array holding the combine of the arrays the region was entered with (under
  max(·, 0) in the first region).
-/
import proofs.«111352_j63934883168987_1_alg».proof.Proof.Gen.KernelIdeal.Frame
import proofs.«111352_j63934883168987_1_alg».proof.Proof.Payload
import proofs.«111352_j63934883168987_1_alg».proof.Proof.Layer
import Idealize.ShloMosaic.Lib.Pipeline.Value

set_option maxRecDepth 16384

noncomputable section

namespace Cert.KernelIdeal.Region

open Cert.KernelIdeal Cert.KernelIdeal.Gen Cert.GraphConv
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-! # The first region -/

/-- The index maps over the grid: the two node-row windows and the output window are at block (t, 0) at point `t`, the
    weight and bias windows at block (0, 0) throughout. -/
theorem index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Element (p, k) of the neighbourhood-sum block at point `t` is element (5000·t + p, k) of the array. -/
theorem aggBlock0 (c : Dev nD) (t : Fin cfg0.N) (p : Fin 5000) (k : Fin 128) (r : Fin 100000) (hr : r.val = t.val * 5000 + p.val) :
    (iblk0 V c 0 t : Vec Ideal S5000x128 .f32) (ix2 p k) = (V c main_v13 : S100000x128.Idx → EReal) (ix2 r k) := by
  obtain ⟨e0, e1, -⟩ := index0 t
  unfold iblk0
  rw [View.read_apply]
  show V c main_v13 _ = V c main_v13 _
  congr 1
  funext a
  apply Fin.ext
  match a with
  | ⟨0, _⟩ => show win0_0.index t 0 * 5000 + 1 * p.val = r.val; rw [e0, hr]; omega
  | ⟨1, _⟩ => show win0_0.index t 1 * 128 + 1 * k.val = k.val; rw [e1]; omega

/-- Element (p, k) of the node-feature block at point `t` is element (5000·t + p, k) of the array. -/
theorem featBlock0 (c : Dev nD) (t : Fin cfg0.N) (p : Fin 5000) (k : Fin 128) (r : Fin 100000) (hr : r.val = t.val * 5000 + p.val) :
    (iblk0 V c 1 t : Vec Ideal S5000x128 .f32) (ix2 p k) = (V c main_arg0 : S100000x128.Idx → EReal) (ix2 r k) := by
  obtain ⟨-, -, e0, e1, -⟩ := index0 t
  unfold iblk0
  rw [View.read_apply]
  show V c main_arg0 _ = V c main_arg0 _
  congr 1
  funext a
  apply Fin.ext
  match a with
  | ⟨0, _⟩ => show win0_1.index t 0 * 5000 + 1 * p.val = r.val; rw [e0, hr]; omega
  | ⟨1, _⟩ => show win0_1.index t 1 * 128 + 1 * k.val = k.val; rw [e1]; omega

/-- The first weight window's one block is the whole matrix. -/
theorem wrelBlock0 (c : Dev nD) (t : Fin cfg0.N) (k q : Fin 128) :
    (iblk0 V c 2 t : Vec Ideal S128x128 .f32) (ix2 k q) = (V c main_v14 : S128x128.Idx → EReal) (ix2 k q) := by
  obtain ⟨-, -, -, -, e0, e1, -⟩ := index0 t
  unfold iblk0
  rw [View.read_apply]
  show V c main_v14 _ = V c main_v14 _
  congr 1
  funext a
  apply Fin.ext
  match a with
  | ⟨0, _⟩ => show win0_2.index t 0 * 128 + 1 * k.val = k.val; rw [e0]; omega
  | ⟨1, _⟩ => show win0_2.index t 1 * 128 + 1 * q.val = q.val; rw [e1]; omega

/-- The second weight window's one block is the whole matrix. -/
theorem wrootBlock0 (c : Dev nD) (t : Fin cfg0.N) (k q : Fin 128) :
    (iblk0 V c 3 t : Vec Ideal S128x128 .f32) (ix2 k q) = (V c main_v15 : S128x128.Idx → EReal) (ix2 k q) := by
  obtain ⟨-, -, -, -, -, -, e0, e1, -⟩ := index0 t
  unfold iblk0
  rw [View.read_apply]
  show V c main_v15 _ = V c main_v15 _
  congr 1
  funext a
  apply Fin.ext
  match a with
  | ⟨0, _⟩ => show win0_3.index t 0 * 128 + 1 * k.val = k.val; rw [e0]; omega
  | ⟨1, _⟩ => show win0_3.index t 1 * 128 + 1 * q.val = q.val; rw [e1]; omega

/-- The bias window's one block is the whole one-row matrix. -/
theorem biasBlock0 (c : Dev nD) (t : Fin cfg0.N) (q : Fin 128) :
    (iblk0 V c 4 t : Vec Ideal S1x128 .f32) (ix2 (0 : Fin 1) q) = (V c main_v16 : S1x128.Idx → EReal) (ix2 (0 : Fin 1) q) := by
  obtain ⟨-, -, -, -, -, -, -, -, e0, e1, -⟩ := index0 t
  unfold iblk0
  rw [View.read_apply]
  show V c main_v16 _ = V c main_v16 _
  congr 1
  funext a
  apply Fin.ext
  match a with
  | ⟨0, _⟩ => show win0_4.index t 0 * 1 + 1 * 0 = 0; rw [e0]
  | ⟨1, _⟩ => show win0_4.index t 1 * 128 + 1 * q.val = q.val; rw [e1]; omega

/-- Element (p, q) of the output block at point `t` is element (5000·t + p, q) of the output array. -/
theorem outBlock0 (t : Fin cfg0.N) (p : Fin 5000) (q : Fin 128) (r : Fin 100000) (hr : r.val = t.val * 5000 + p.val) :
    ((cfg0.win 5).blk t).view.emb (ix2 p q : S5000x128.Idx) = (ix2 r q : S100000x128.Idx) := by
  obtain ⟨-, -, -, -, -, -, -, -, -, -, e0, e1⟩ := index0 t
  funext a
  apply Fin.ext
  match a with
  | ⟨0, _⟩ => show win0_5.index t 0 * 5000 + 1 * p.val = r.val; rw [e0, hr]; omega
  | ⟨1, _⟩ => show win0_5.index t 1 * 128 + 1 * q.val = q.val; rw [e1]; omega

/-- The bias as a vector: row 0 of the one-row matrix the region finds. -/
abbrev biasRow0 (c : Dev nD) : Row.Idx → EReal := fun j => (V c main_v16 : S1x128.Idx → EReal) (ix2 (0 : Fin 1) (j 0))

/-- What the first region leaves in its output array: the combine of the arrays it finds, under max(·, 0). -/
abbrev left0 (c : Dev nD) : S100000x128.Idx → EReal :=
  combineRelu (V c main_v13) (V c main_arg0) (V c main_v14) (V c main_v15) (biasRow0 V c)

/-- What point `t` writes back is block `t` of `left0`. -/
theorem flushed0 (c : Dev nD) (t : Fin cfg0.N) :
    (dat0 V c).flushed 5 t = ((cfg0.win 5).blk t).view.read (Elt Ideal) (left0 V c) := by
  have hN : cfg0.N = 20 := N_0
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  have hr : t.val * 5000 + p.val < 100000 := by have := t.isLt; have := p.isLt; omega
  refine (Pay.pay0_apply _ _ _ _ _ p q).trans ?_
  rw [View.read_apply, outBlock0 t p q ⟨t.val * 5000 + p.val, hr⟩ rfl]
  show _ = max (combineAt _ _ _ _ _ _ _) 0
  unfold combineAt
  refine congrArg (fun z => max z (0 : EReal)) ?_
  refine congrArg₂ (· + ·) (congrArg₂ (· + ·) (Finset.sum_congr rfl fun k _ => ?_) (Finset.sum_congr rfl fun k _ => ?_)) ?_
  · exact congrArg₂ (· * ·) (aggBlock0 V c t p k ⟨t.val * 5000 + p.val, hr⟩ rfl) (wrelBlock0 V c t k q)
  · exact congrArg₂ (· * ·) (featBlock0 V c t p k ⟨t.val * 5000 + p.val, hr⟩ rfl) (wrootBlock0 V c t k q)
  · exact biasBlock0 V c t q

/-- An index of the output array is in point `t`'s block iff its row is among rows 5000·t … 5000·t + 4999. -/
theorem mem_blk0 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v17).slice (win0_5.rect t)).set ↔ _
  rw [View.set_slice_whole, Rect.mem_set_unit]
  exact Iff.rfl

/-- The array after the first region. -/
theorem final0 (c : Dev nD) : (dat0 V c).arrAt 5 cfg0.N = left0 V c :=
  (dat0 V c).arrAt_eq_of_cover 5 (left0 V c) (fun t _ => flushed0 V c t) fun i => by
    have hN : cfg0.N = 20 := N_0
    have hi0 : (i 0).val < 100000 := (i 0).isLt
    have hi1 : (i 1).val < 128 := (i 1).isLt
    refine ⟨⟨(i 0).val / 5000, by rw [hN]; omega⟩, flush0_5 _, ?_⟩
    rw [mem_blk0]
    obtain ⟨-, -, -, -, -, -, -, -, -, -, e0, e1⟩ := index0 ⟨(i 0).val / 5000, by rw [hN]; omega⟩
    intro a
    match a with
    | ⟨0, _⟩ => show win0_5.index _ 0 * 5000 ≤ (i 0).val ∧ (i 0).val < win0_5.index _ 0 * 5000 + 5000; rw [e0]; show (i 0).val / 5000 * 5000 ≤ (i 0).val ∧ (i 0).val < (i 0).val / 5000 * 5000 + 5000; omega
    | ⟨1, _⟩ => show win0_5.index _ 1 * 128 ≤ (i 1).val ∧ (i 1).val < win0_5.index _ 1 * 128 + 128; rw [e1]; omega

/-! # The second region -/

/-- The second region's index maps over its grid: as the first's. -/
theorem index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Element (p, k) of the second neighbourhood-sum block at point `t` is element (5000·t + p, k) of its array. -/
theorem aggBlock1 (c : Dev nD) (t : Fin cfg1.N) (p : Fin 5000) (k : Fin 128) (r : Fin 100000) (hr : r.val = t.val * 5000 + p.val) :
    (iblk1 V c 0 t : Vec Ideal S5000x128 .f32) (ix2 p k) = (V c main_v27 : S100000x128.Idx → EReal) (ix2 r k) := by
  obtain ⟨e0, e1, -⟩ := index1 t
  unfold iblk1
  rw [View.read_apply]
  show V c main_v27 _ = V c main_v27 _
  congr 1
  funext a
  apply Fin.ext
  match a with
  | ⟨0, _⟩ => show win1_0.index t 0 * 5000 + 1 * p.val = r.val; rw [e0, hr]; omega
  | ⟨1, _⟩ => show win1_0.index t 1 * 128 + 1 * k.val = k.val; rw [e1]; omega

/-- Element (p, k) of the hidden-feature block at point `t` is element (5000·t + p, k) of the first region's output. -/
theorem featBlock1 (c : Dev nD) (t : Fin cfg1.N) (p : Fin 5000) (k : Fin 128) (r : Fin 100000) (hr : r.val = t.val * 5000 + p.val) :
    (iblk1 V c 1 t : Vec Ideal S5000x128 .f32) (ix2 p k) = (V c main_v17 : S100000x128.Idx → EReal) (ix2 r k) := by
  obtain ⟨-, -, e0, e1, -⟩ := index1 t
  unfold iblk1
  rw [View.read_apply]
  show V c main_v17 _ = V c main_v17 _
  congr 1
  funext a
  apply Fin.ext
  match a with
  | ⟨0, _⟩ => show win1_1.index t 0 * 5000 + 1 * p.val = r.val; rw [e0, hr]; omega
  | ⟨1, _⟩ => show win1_1.index t 1 * 128 + 1 * k.val = k.val; rw [e1]; omega

/-- The second layer's first weight window's one block is the whole matrix. -/
theorem wrelBlock1 (c : Dev nD) (t : Fin cfg1.N) (k q : Fin 128) :
    (iblk1 V c 2 t : Vec Ideal S128x128 .f32) (ix2 k q) = (V c main_v28 : S128x128.Idx → EReal) (ix2 k q) := by
  obtain ⟨-, -, -, -, e0, e1, -⟩ := index1 t
  unfold iblk1
  rw [View.read_apply]
  show V c main_v28 _ = V c main_v28 _
  congr 1
  funext a
  apply Fin.ext
  match a with
  | ⟨0, _⟩ => show win1_2.index t 0 * 128 + 1 * k.val = k.val; rw [e0]; omega
  | ⟨1, _⟩ => show win1_2.index t 1 * 128 + 1 * q.val = q.val; rw [e1]; omega

/-- The second layer's second weight window's one block is the whole matrix. -/
theorem wrootBlock1 (c : Dev nD) (t : Fin cfg1.N) (k q : Fin 128) :
    (iblk1 V c 3 t : Vec Ideal S128x128 .f32) (ix2 k q) = (V c main_v29 : S128x128.Idx → EReal) (ix2 k q) := by
  obtain ⟨-, -, -, -, -, -, e0, e1, -⟩ := index1 t
  unfold iblk1
  rw [View.read_apply]
  show V c main_v29 _ = V c main_v29 _
  congr 1
  funext a
  apply Fin.ext
  match a with
  | ⟨0, _⟩ => show win1_3.index t 0 * 128 + 1 * k.val = k.val; rw [e0]; omega
  | ⟨1, _⟩ => show win1_3.index t 1 * 128 + 1 * q.val = q.val; rw [e1]; omega

/-- The second layer's bias window's one block is the whole one-row matrix. -/
theorem biasBlock1 (c : Dev nD) (t : Fin cfg1.N) (q : Fin 128) :
    (iblk1 V c 4 t : Vec Ideal S1x128 .f32) (ix2 (0 : Fin 1) q) = (V c main_v30 : S1x128.Idx → EReal) (ix2 (0 : Fin 1) q) := by
  obtain ⟨-, -, -, -, -, -, -, -, e0, e1, -⟩ := index1 t
  unfold iblk1
  rw [View.read_apply]
  show V c main_v30 _ = V c main_v30 _
  congr 1
  funext a
  apply Fin.ext
  match a with
  | ⟨0, _⟩ => show win1_4.index t 0 * 1 + 1 * 0 = 0; rw [e0]
  | ⟨1, _⟩ => show win1_4.index t 1 * 128 + 1 * q.val = q.val; rw [e1]; omega

/-- Element (p, q) of the second region's output block at point `t` is element (5000·t + p, q) of the result array. -/
theorem outBlock1 (t : Fin cfg1.N) (p : Fin 5000) (q : Fin 128) (r : Fin 100000) (hr : r.val = t.val * 5000 + p.val) :
    ((cfg1.win 5).blk t).view.emb (ix2 p q : S5000x128.Idx) = (ix2 r q : S100000x128.Idx) := by
  obtain ⟨-, -, -, -, -, -, -, -, -, -, e0, e1⟩ := index1 t
  funext a
  apply Fin.ext
  match a with
  | ⟨0, _⟩ => show win1_5.index t 0 * 5000 + 1 * p.val = r.val; rw [e0, hr]; omega
  | ⟨1, _⟩ => show win1_5.index t 1 * 128 + 1 * q.val = q.val; rw [e1]; omega

/-- The second layer's bias as a vector: row 0 of the one-row matrix the region finds. -/
abbrev biasRow1 (c : Dev nD) : Row.Idx → EReal := fun j => (V c main_v30 : S1x128.Idx → EReal) (ix2 (0 : Fin 1) (j 0))

/-- What the second region leaves in the result array: the combine of the arrays it finds. -/
abbrev left1 (c : Dev nD) : S100000x128.Idx → EReal :=
  combine (V c main_v27) (V c main_v17) (V c main_v28) (V c main_v29) (biasRow1 V c)

/-- What point `t` of the second region writes back is block `t` of `left1`. -/
theorem flushed1 (c : Dev nD) (t : Fin cfg1.N) :
    (dat1 V c).flushed 5 t = ((cfg1.win 5).blk t).view.read (Elt Ideal) (left1 V c) := by
  have hN : cfg1.N = 20 := N_1
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  have hr : t.val * 5000 + p.val < 100000 := by have := t.isLt; have := p.isLt; omega
  refine (Pay.pay1_apply _ _ _ _ _ p q).trans ?_
  rw [View.read_apply, outBlock1 t p q ⟨t.val * 5000 + p.val, hr⟩ rfl]
  show _ = combineAt _ _ _ _ _ _ _
  unfold combineAt
  refine congrArg₂ (· + ·) (congrArg₂ (· + ·) (Finset.sum_congr rfl fun k _ => ?_) (Finset.sum_congr rfl fun k _ => ?_)) ?_
  · exact congrArg₂ (· * ·) (aggBlock1 V c t p k ⟨t.val * 5000 + p.val, hr⟩ rfl) (wrelBlock1 V c t k q)
  · exact congrArg₂ (· * ·) (featBlock1 V c t p k ⟨t.val * 5000 + p.val, hr⟩ rfl) (wrootBlock1 V c t k q)
  · exact biasBlock1 V c t q

/-- An index of the result array is in point `t`'s block iff its row is among rows 5000·t … 5000·t + 4999. -/
theorem mem_blk1 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v31).slice (win1_5.rect t)).set ↔ _
  rw [View.set_slice_whole, Rect.mem_set_unit]
  exact Iff.rfl

/-- The result array after the second region. -/
theorem final1 (c : Dev nD) : (dat1 V c).arrAt 5 cfg1.N = left1 V c :=
  (dat1 V c).arrAt_eq_of_cover 5 (left1 V c) (fun t _ => flushed1 V c t) fun i => by
    have hN : cfg1.N = 20 := N_1
    have hi0 : (i 0).val < 100000 := (i 0).isLt
    have hi1 : (i 1).val < 128 := (i 1).isLt
    refine ⟨⟨(i 0).val / 5000, by rw [hN]; omega⟩, flush1_5 _, ?_⟩
    rw [mem_blk1]
    obtain ⟨-, -, -, -, -, -, -, -, -, -, e0, e1⟩ := index1 ⟨(i 0).val / 5000, by rw [hN]; omega⟩
    intro a
    match a with
    | ⟨0, _⟩ => show win1_5.index _ 0 * 5000 ≤ (i 0).val ∧ (i 0).val < win1_5.index _ 0 * 5000 + 5000; rw [e0]; show (i 0).val / 5000 * 5000 ≤ (i 0).val ∧ (i 0).val < (i 0).val / 5000 * 5000 + 5000; omega
    | ⟨1, _⟩ => show win1_5.index _ 1 * 128 ≤ (i 1).val ∧ (i 1).val < win1_5.index _ 1 * 128 + 128; rw [e1]; omega

end Cert.KernelIdeal.Region

end
-- ==== Proof.KernelValue.lean ====
/-
  THE KERNEL PROGRAM'S RESULT AS THE TWO-LAYER FUNCTION OF ITS ARGUMENTS, over the extended reals.

  The program is four stretches: host operations, the first region, host operations, the second region.  The buffer
  contents at each boundary are read back to the launch memory:
    * before the first region the host has sliced the edge list into its source and destination rows, gathered the
      node rows at the (wrapped) sources and summed them into the destination rows, transposed the first layer's two
      weight matrices and reshaped its bias to one row;
    * the first region leaves the first layer's combine under max(·, 0) in its output array and every other buffer
      as it was;
    * the host then does the same gather and segmented sum on that output, with the second layer's weights and bias;
    * the second region leaves the second layer's combine in the result array.
  So the result is `twoLayer` of the arguments, the aggregation being the gather and segmented sum over the edge list.
-/
import proofs.«111352_j63934883168987_1_alg».proof.Proof.Gen.KernelIdeal.Frame
import proofs.«111352_j63934883168987_1_alg».proof.Proof.RegionValue
import proofs.«111352_j63934883168987_1_alg».proof.Proof.KernelRun
import Idealize.ShloMosaic.Lib.StableHlo.Run
import Idealize.ShloMosaic.Lib.Pipeline.Value

set_option maxRecDepth 16384

noncomputable section

namespace Cert.KernelIdeal.KValue

open Cert.KernelIdeal Cert.KernelIdeal.Gen Cert.KernelIdeal.Region Cert.GraphConv
open Idealize.ShloMosaic Idealize.ShloMosaic.TcCoe Idealize.SL.Sem Idealize.ShloMosaic.ValueIdx Idealize.ShloMosaic.StableHlo
open scoped BigOperators

variable (m : (ℓ : Loc nD τ sig) → Buf (Elt Ideal) ℓ) (ρ : Dev nD → PrngReg)

/-- Row 0 of the edge list (the sources) as a vector. -/
def edgeSrc (e : (⟨S2x1600000, .i32⟩ : BufTy).Contents (Elt Ideal)) : (⟨S1600000, .i32⟩ : BufTy).Contents (Elt Ideal) :=
  shapeCast _ (extractStridedSlice S1x1600000 ![0, 0] e slices_S2x1600000_S1x1600000_0_0) shapeCasts_S1x1600000_S1600000
/-- Row 1 of the edge list (the destinations) as a vector. -/
def edgeDst (e : (⟨S2x1600000, .i32⟩ : BufTy).Contents (Elt Ideal)) : (⟨S1600000, .i32⟩ : BufTy).Contents (Elt Ideal) :=
  shapeCast _ (extractStridedSlice S1x1600000 ![1, 0] e slices_S2x1600000_S1x1600000_1_0) shapeCasts_S1x1600000_S1600000

/-- The neighbourhood aggregation from source and destination vectors: gather the rows of `y` at the sources (a negative
    index first wrapped by the row count) and add each into the row its destination names, starting from zeros. -/
def aggrOf (s d : (⟨S1600000, .i32⟩ : BufTy).Contents (Elt Ideal)) (y : FVec Ideal S100000x128 .f32) : FVec Ideal S100000x128 .f32 :=
  Host.scatterAdd (F := Ideal) (φ := .f32) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 d)
    (Host.gather gather_S100000x128_S1600000x1_S1600000x128_1_0_n_n_0_1_1128 y
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))

/-- The aggregation over an edge list. -/
def aggr (e : (⟨S2x1600000, .i32⟩ : BufTy).Contents (Elt Ideal)) (y : FVec Ideal S100000x128 .f32) : FVec Ideal S100000x128 .f32 :=
  aggrOf (edgeSrc e) (edgeDst e) y

/-- A weight matrix transposed. -/
def transposed (w : FVec Ideal S128x128 .f32) : FVec Ideal S128x128 .f32 :=
  transpose S128x128 [1, 0] w transposes_S128x128_S128x128_1_0

/-! ## Before the first region -/

theorem W1_src (c : Dev nD) : W1 m ρ c (Proc.devRef .tc main_v1) = edgeSrc (m ((c : Thread nD τ).loc main_arg1)) := by
  show StableHlo.after hostOps0 (W0 m ρ c) (Proc.devRef .tc main_v1) = _
  dsimp only [hostOps0]; after_results; rfl
theorem W1_dst (c : Dev nD) : W1 m ρ c (Proc.devRef .tc main_v3) = edgeDst (m ((c : Thread nD τ).loc main_arg1)) := by
  show StableHlo.after hostOps0 (W0 m ρ c) (Proc.devRef .tc main_v3) = _
  dsimp only [hostOps0]; after_results; rfl
theorem W1_agg (c : Dev nD) : W1 m ρ c (Proc.devRef .tc main_v13)
    = aggr (m ((c : Thread nD τ).loc main_arg1)) (m ((c : Thread nD τ).loc main_arg0)) := by
  show StableHlo.after hostOps0 (W0 m ρ c) (Proc.devRef .tc main_v13) = _
  dsimp only [hostOps0]; after_results; rfl
theorem W1_wrel (c : Dev nD) : W1 m ρ c (Proc.devRef .tc main_v14) = transposed (m ((c : Thread nD τ).loc main_arg2)) := by
  show StableHlo.after hostOps0 (W0 m ρ c) (Proc.devRef .tc main_v14) = _
  dsimp only [hostOps0]; after_results; rfl
theorem W1_wroot (c : Dev nD) : W1 m ρ c (Proc.devRef .tc main_v15) = transposed (m ((c : Thread nD τ).loc main_arg3)) := by
  show StableHlo.after hostOps0 (W0 m ρ c) (Proc.devRef .tc main_v15) = _
  dsimp only [hostOps0]; after_results; rfl
theorem W1_bias (c : Dev nD) : W1 m ρ c (Proc.devRef .tc main_v16)
    = shapeCast S1x128 (m ((c : Thread nD τ).loc main_arg4)) shapeCasts_S128_S1x128 := by
  show StableHlo.after hostOps0 (W0 m ρ c) (Proc.devRef .tc main_v16) = _
  dsimp only [hostOps0]; after_results; rfl
theorem W1_x (c : Dev nD) : W1 m ρ c (Proc.devRef .tc main_arg0) = m ((c : Thread nD τ).loc main_arg0) := by
  show StableHlo.after hostOps0 (W0 m ρ c) (Proc.devRef .tc main_arg0) = _
  dsimp only [hostOps0]; after_results
theorem W1_arg5 (c : Dev nD) : W1 m ρ c (Proc.devRef .tc main_arg5) = m ((c : Thread nD τ).loc main_arg5) := by
  show StableHlo.after hostOps0 (W0 m ρ c) (Proc.devRef .tc main_arg5) = _
  dsimp only [hostOps0]; after_results
theorem W1_arg6 (c : Dev nD) : W1 m ρ c (Proc.devRef .tc main_arg6) = m ((c : Thread nD τ).loc main_arg6) := by
  show StableHlo.after hostOps0 (W0 m ρ c) (Proc.devRef .tc main_arg6) = _
  dsimp only [hostOps0]; after_results
theorem W1_arg7 (c : Dev nD) : W1 m ρ c (Proc.devRef .tc main_arg7) = m ((c : Thread nD τ).loc main_arg7) := by
  show StableHlo.after hostOps0 (W0 m ρ c) (Proc.devRef .tc main_arg7) = _
  dsimp only [hostOps0]; after_results

/-- The bias reshaped to one row and read back along that row is the bias. -/
theorem biasRow_eq (b : FVec Ideal S128 .f32) :
    (fun j : Row.Idx => (shapeCast S1x128 b shapeCasts_S128_S1x128 : S1x128.Idx → EReal) (ix2 (0 : Fin 1) (j 0))) = b := by
  funext j
  refine shapeCast_apply b shapeCasts_S128_S1x128 (ix2 (0 : Fin 1) (j 0)) j ?_
  rw [Shape.rowMajor_val_two, Shape.rowMajor_val_one]
  show (j 0).val = 0 * 128 + (j 0).val
  omega

/-- What the first region leaves, in terms of the arguments: the first layer's output. -/
theorem hidden_eq (c : Dev nD) : left0 (V1 m ρ) c
    = combineRelu (aggr (m ((c : Thread nD τ).loc main_arg1)) (m ((c : Thread nD τ).loc main_arg0))) (m ((c : Thread nD τ).loc main_arg0)) (transposed (m ((c : Thread nD τ).loc main_arg2))) (transposed (m ((c : Thread nD τ).loc main_arg3))) (m ((c : Thread nD τ).loc main_arg4)) := by
  show combineRelu (W1 m ρ c (Proc.devRef .tc main_v13)) (W1 m ρ c (Proc.devRef .tc main_arg0))
      (W1 m ρ c (Proc.devRef .tc main_v14)) (W1 m ρ c (Proc.devRef .tc main_v15))
      (fun j : Row.Idx => (W1 m ρ c (Proc.devRef .tc main_v16) : S1x128.Idx → EReal) (ix2 (0 : Fin 1) (j 0))) = _
  rw [W1_agg, W1_x, W1_wrel, W1_wroot, W1_bias, biasRow_eq]

/-! ## After the first region: its output array at the first layer's output, every other buffer as before -/

theorem W2_hidden (c : Dev nD) : W2 m ρ c (Proc.devRef .tc main_v17)
    = combineRelu (aggr (m ((c : Thread nD τ).loc main_arg1)) (m ((c : Thread nD τ).loc main_arg0))) (m ((c : Thread nD τ).loc main_arg0)) (transposed (m ((c : Thread nD τ).loc main_arg2))) (transposed (m ((c : Thread nD τ).loc main_arg3))) (m ((c : Thread nD τ).loc main_arg4)) :=
  ((W2_arr m ρ c 5).trans (final0 (V1 m ρ) c)).trans (hidden_eq m ρ c)
theorem W2_src (c : Dev nD) : W2 m ρ c (Proc.devRef .tc main_v1) = edgeSrc (m ((c : Thread nD τ).loc main_arg1)) :=
  (W2_of_ne m ρ c main_v1 (by decide)).trans (W1_src m ρ c)
theorem W2_dst (c : Dev nD) : W2 m ρ c (Proc.devRef .tc main_v3) = edgeDst (m ((c : Thread nD τ).loc main_arg1)) :=
  (W2_of_ne m ρ c main_v3 (by decide)).trans (W1_dst m ρ c)
theorem W2_arg5 (c : Dev nD) : W2 m ρ c (Proc.devRef .tc main_arg5) = (m ((c : Thread nD τ).loc main_arg5)) :=
  (W2_of_ne m ρ c main_arg5 (by decide)).trans (W1_arg5 m ρ c)
theorem W2_arg6 (c : Dev nD) : W2 m ρ c (Proc.devRef .tc main_arg6) = (m ((c : Thread nD τ).loc main_arg6)) :=
  (W2_of_ne m ρ c main_arg6 (by decide)).trans (W1_arg6 m ρ c)
theorem W2_arg7 (c : Dev nD) : W2 m ρ c (Proc.devRef .tc main_arg7) = (m ((c : Thread nD τ).loc main_arg7)) :=
  (W2_of_ne m ρ c main_arg7 (by decide)).trans (W1_arg7 m ρ c)

/-! ## Before the second region -/

theorem W3_agg (c : Dev nD) : W3 m ρ c (Proc.devRef .tc main_v27)
    = aggrOf (W2 m ρ c (Proc.devRef .tc main_v1)) (W2 m ρ c (Proc.devRef .tc main_v3)) (W2 m ρ c (Proc.devRef .tc main_v17)) := by
  show StableHlo.after hostOps1 (W2 m ρ c) (Proc.devRef .tc main_v27) = _
  dsimp only [hostOps1]; after_results; rfl
theorem W3_hidden (c : Dev nD) : W3 m ρ c (Proc.devRef .tc main_v17) = W2 m ρ c (Proc.devRef .tc main_v17) := by
  show StableHlo.after hostOps1 (W2 m ρ c) (Proc.devRef .tc main_v17) = _
  dsimp only [hostOps1]; after_results
theorem W3_wrel (c : Dev nD) : W3 m ρ c (Proc.devRef .tc main_v28) = transposed (W2 m ρ c (Proc.devRef .tc main_arg5)) := by
  show StableHlo.after hostOps1 (W2 m ρ c) (Proc.devRef .tc main_v28) = _
  dsimp only [hostOps1]; after_results; rfl
theorem W3_wroot (c : Dev nD) : W3 m ρ c (Proc.devRef .tc main_v29) = transposed (W2 m ρ c (Proc.devRef .tc main_arg6)) := by
  show StableHlo.after hostOps1 (W2 m ρ c) (Proc.devRef .tc main_v29) = _
  dsimp only [hostOps1]; after_results; rfl
theorem W3_bias (c : Dev nD) : W3 m ρ c (Proc.devRef .tc main_v30)
    = shapeCast S1x128 (W2 m ρ c (Proc.devRef .tc main_arg7)) shapeCasts_S128_S1x128 := by
  show StableHlo.after hostOps1 (W2 m ρ c) (Proc.devRef .tc main_v30) = _
  dsimp only [hostOps1]; after_results; rfl

/-! ## After the second region -/

/-- The result buffer at the last boundary is the two-layer function of the arguments. -/
theorem result_eq (c : Dev nD) : W4 m ρ c (Proc.devRef .tc main_v31)
    = twoLayer (aggr (m ((c : Thread nD τ).loc main_arg1))) (m ((c : Thread nD τ).loc main_arg0)) (transposed (m ((c : Thread nD τ).loc main_arg2))) (transposed (m ((c : Thread nD τ).loc main_arg3))) (m ((c : Thread nD τ).loc main_arg4))
        (transposed (m ((c : Thread nD τ).loc main_arg5))) (transposed (m ((c : Thread nD τ).loc main_arg6))) (m ((c : Thread nD τ).loc main_arg7)) := by
  refine ((W4_arr m ρ c 5).trans (final1 (V3 m ρ) c)).trans ?_
  show combine (W3 m ρ c (Proc.devRef .tc main_v27)) (W3 m ρ c (Proc.devRef .tc main_v17))
      (W3 m ρ c (Proc.devRef .tc main_v28)) (W3 m ρ c (Proc.devRef .tc main_v29))
      (fun j : Row.Idx => (W3 m ρ c (Proc.devRef .tc main_v30) : S1x128.Idx → EReal) (ix2 (0 : Fin 1) (j 0))) = _
  rw [W3_agg, W3_hidden, W3_wrel, W3_wroot, W3_bias, W2_src, W2_dst, W2_hidden, W2_arg5, W2_arg6, W2_arg7, biasRow_eq]
  rfl

/-- THE RUN, READ: every weakly fair execution of the kernel program ends with the result buffer at the two-layer
    function of the arguments and the arguments as launched. -/
theorem run : θ_run defs (onTc (τ := τ) (main (F := Ideal))) ⟨m, fun _ => 0, ρ⟩ (fun r => ∀ c : Dev nD,
      r.2.mem ((c.tc : Thread nD τ).loc main_v31)
        = twoLayer (aggr (m ((c : Thread nD τ).loc main_arg1))) (m ((c : Thread nD τ).loc main_arg0)) (transposed (m ((c : Thread nD τ).loc main_arg2))) (transposed (m ((c : Thread nD τ).loc main_arg3))) (m ((c : Thread nD τ).loc main_arg4))
            (transposed (m ((c : Thread nD τ).loc main_arg5))) (transposed (m ((c : Thread nD τ).loc main_arg6))) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (run_named m ρ)

end Cert.KernelIdeal.KValue

end
-- ==== Proof.RefValue.lean ====
/-
  THE REFERENCE IS THE TWO-LAYER FUNCTION.  Read one operation at a time, the reference's result at node p and
  feature q is, per layer, the two `dot_general`s' sums over the contracted axis added together, plus the bias entry
  q (the bias broadcast first to one row, then down the rows), with max(·, 0) between the layers; the neighbourhood
  sums entering each layer are the gather and segmented sum of that layer's input, which are kept as one operation
  `aggr` of the edge list and never opened.
-/
import proofs.«111352_j63934883168987_1_alg».proof.Proof.Gen.ReferenceIdeal.Read
import proofs.«111352_j63934883168987_1_alg».proof.Proof.Layer

noncomputable section

namespace Cert.ReferenceIdeal.RefValue

open Cert.ReferenceIdeal Cert.ReferenceIdeal.Read Cert.GraphConv
open Idealize.ShloMosaic Idealize.ShloMosaic.ValueIdx
open scoped BigOperators

/-- The neighbourhood aggregation as the reference computes it: gather the rows of `y` at the source indices (a
    negative index first wrapped by the row count), and add each gathered row into the row its destination index
    names, starting from zeros. -/
def aggr (x1 : (⟨S2x1600000, .i32⟩ : BufTy).Contents (Elt Ideal)) (y : FVec Ideal S100000x128 .f32) :
    FVec Ideal S100000x128 .f32 :=
  Host.scatterAdd (F := Ideal) (φ := .f32) scatter_S100000x128_S1600000x1_S1600000x128_1_0_0_1 (val_main_v11 (F := Ideal)) (val_main_v12 (F := Ideal) x1)
    (Host.gather gather_S100000x128_S1600000x1_S1600000x128_1_0_n_n_0_1_1128 y (val_main_v9 (F := Ideal) x1))

/-! ## The operand indices of the four contractions, and of the two bias broadcasts, at coordinates -/

theorem lidx15 (p : Fin 100000) (q k : Fin 128) : lidx_main_v15 (ix2 p q) k = ix2 p k :=
  funext fun a => Fin.ext (by match a with | ⟨0, _⟩ => rfl | ⟨1, _⟩ => rfl)
theorem ridx15 (p : Fin 100000) (q k : Fin 128) : ridx_main_v15 (ix2 p q) k = ix2 k q :=
  funext fun a => Fin.ext (by match a with | ⟨0, _⟩ => rfl | ⟨1, _⟩ => rfl)
theorem lidx17 (p : Fin 100000) (q k : Fin 128) : lidx_main_v17 (ix2 p q) k = ix2 p k :=
  funext fun a => Fin.ext (by match a with | ⟨0, _⟩ => rfl | ⟨1, _⟩ => rfl)
theorem ridx17 (p : Fin 100000) (q k : Fin 128) : ridx_main_v17 (ix2 p q) k = ix2 k q :=
  funext fun a => Fin.ext (by match a with | ⟨0, _⟩ => rfl | ⟨1, _⟩ => rfl)
theorem lidx34 (p : Fin 100000) (q k : Fin 128) : lidx_main_v34 (ix2 p q) k = ix2 p k :=
  funext fun a => Fin.ext (by match a with | ⟨0, _⟩ => rfl | ⟨1, _⟩ => rfl)
theorem ridx34 (p : Fin 100000) (q k : Fin 128) : ridx_main_v34 (ix2 p q) k = ix2 k q :=
  funext fun a => Fin.ext (by match a with | ⟨0, _⟩ => rfl | ⟨1, _⟩ => rfl)
theorem lidx36 (p : Fin 100000) (q k : Fin 128) : lidx_main_v36 (ix2 p q) k = ix2 p k :=
  funext fun a => Fin.ext (by match a with | ⟨0, _⟩ => rfl | ⟨1, _⟩ => rfl)
theorem ridx36 (p : Fin 100000) (q k : Fin 128) : ridx_main_v36 (ix2 p q) k = ix2 k q :=
  funext fun a => Fin.ext (by match a with | ⟨0, _⟩ => rfl | ⟨1, _⟩ => rfl)
theorem bidx1 (p : Fin 100000) (q : Fin 128) : idx_main_v19 (idx_main_v20 (ix2 p q)) = ix1 q :=
  funext fun a => Fin.ext (by match a with | ⟨0, _⟩ => rfl)
theorem bidx2 (p : Fin 100000) (q : Fin 128) : idx_main_v38 (idx_main_v39 (ix2 p q)) = ix1 q :=
  funext fun a => Fin.ext (by match a with | ⟨0, _⟩ => rfl)

/-- The first layer's output as the reference computes it is the combine of the aggregated input, under max(·, 0). -/
theorem hidden_eq (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal)) :
    val_main_v22 (F := Ideal) x0 x1 x2 x3 x4
      = combineRelu (aggr x1 x0) x0 (val_main_v14 (F := Ideal) x2) (val_main_v16 (F := Ideal) x3) x4 := by
  funext i
  obtain ⟨p, q, rfl⟩ : ∃ (p : Fin 100000) (q : Fin 128), i = ix2 p q := ⟨i 0, i 1, eq_ix2 i⟩
  rw [val_main_v22_apply, val_main_v21_apply, val_main_v18_apply, val_main_v15_apply, val_main_v17_apply,
    val_main_v20_apply, val_main_v19_apply, val_main_call0_v0_apply, val_main_call0_cst_apply, bidx1]
  simp only [lidx15, ridx15, lidx17, ridx17]
  show max ((_ + _) + _) (Ideal.ofBits .f32 0x00000000#32) = max (combineAt _ _ _ _ _ p q) 0
  rw [Ideal.ofBits_zero_f32]
  rfl

/-- The reference's result is the two-layer function of its arguments. -/
theorem result_eq (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal)) :
    val_main_v40 (F := Ideal) x0 x1 x2 x3 x4 x5 x6 x7
      = twoLayer (aggr x1) x0 (val_main_v14 (F := Ideal) x2) (val_main_v16 (F := Ideal) x3) x4
          (val_main_v33 (F := Ideal) x5) (val_main_v35 (F := Ideal) x6) x7 := by
  have hagg : val_main_v32 (F := Ideal) x0 x1 x2 x3 x4 = aggr x1 (val_main_v22 (F := Ideal) x0 x1 x2 x3 x4) := rfl
  unfold twoLayer
  rw [← hidden_eq x0 x1 x2 x3 x4]
  funext i
  obtain ⟨p, q, rfl⟩ : ∃ (p : Fin 100000) (q : Fin 128), i = ix2 p q := ⟨i 0, i 1, eq_ix2 i⟩
  rw [val_main_v40_apply, val_main_v37_apply, val_main_v34_apply, val_main_v36_apply,
    val_main_v39_apply, val_main_v38_apply, bidx2, hagg]
  simp only [lidx34, ridx34, lidx36, ridx36]
  rfl

end Cert.ReferenceIdeal.RefValue

end
-- ==== Proof.lean ====
/-
  A two-layer graph convolution (sum aggregation) on 100000 nodes with 128 features and 1600000 edges, against its
  plain reference, over the extended reals.

  Per layer both programs first form the neighbourhood sums `agg = segment_sum(h[src], dst)` by the same two host
  operations on the same edge list (a row gather at the source indices, an accumulating scatter at the destination
  indices), and then the dense combine

      out[i, j] = (Σ_k agg[i, k] · W_rel[j, k]  +  Σ_k h[i, k] · W_root[j, k])  +  b[j],

  followed by max(·, 0) after the first layer.  The kernel computes the combine in a pallas_call per layer, 5000 node
  rows per grid point, its operands narrowed to bf16 before the two matrix products; the reference computes it by two
  `dot_general`s on whole arrays.  Over the extended reals the narrowing is the identity and each matrix product is
  the plain sum over the contracted axis, in both programs with the same grouping of the three summands, so the two
  results are one function of the arguments, `GraphConv.twoLayer`: no law of the extended reals is needed beyond
  reading each operation at an element, and the precondition (finite inputs) is never opened.

  Proof/Layer.lean states that function; Proof/Payload.lean reads the two kernel bodies at an element;
  Proof/RegionValue.lean shows each region leaves the layer's combine in its output array; Proof/KernelValue.lean
  reads the buffers at each boundary of the kernel program back to the arguments and states the kernel program's
  run; Proof/RefValue.lean shows the reference's result is the same function.  The aggregation is never opened: the
  two programs' gather and scatter are literally the same operations, so they are equal by unfolding.
-/
import proofs.«111352_j63934883168987_1_alg».proof.Defs
import proofs.«111352_j63934883168987_1_alg».proof.Proof.Gen.Kernel
import proofs.«111352_j63934883168987_1_alg».proof.Proof.Gen.Kernel.Skeleton
import proofs.«111352_j63934883168987_1_alg».proof.Proof.Gen.Kernel.Launch
import proofs.«111352_j63934883168987_1_alg».proof.Proof.Gen.Kernel.Points
import proofs.«111352_j63934883168987_1_alg».proof.Proof.Gen.Kernel.Frame
import proofs.«111352_j63934883168987_1_alg».proof.Proof.Gen.KernelIdeal
import proofs.«111352_j63934883168987_1_alg».proof.Proof.Gen.KernelIdeal.Skeleton
import proofs.«111352_j63934883168987_1_alg».proof.Proof.Gen.KernelIdeal.Launch
import proofs.«111352_j63934883168987_1_alg».proof.Proof.Gen.KernelIdeal.Points
import proofs.«111352_j63934883168987_1_alg».proof.Proof.Gen.KernelIdeal.Frame
import proofs.«111352_j63934883168987_1_alg».proof.Proof.Gen.ReferenceIdeal
import proofs.«111352_j63934883168987_1_alg».proof.Proof.Gen.Pre_finite_inputs
import proofs.«111352_j63934883168987_1_alg».proof.Proof.Gen.ReferenceIdeal.Run
import proofs.«111352_j63934883168987_1_alg».proof.Proof.Gen.ReferenceIdeal.Read
import proofs.«111352_j63934883168987_1_alg».proof.Proof.KernelValue
import proofs.«111352_j63934883168987_1_alg».proof.Proof.RefValue
import Idealize.ShloMosaic.Adequacy
import Idealize.ShloMosaic.Init

set_option maxRecDepth 16384

noncomputable section

open Idealize.ShloMosaic Idealize.ShloMosaic.TcCoe Idealize.SL.Sem

namespace Cert.Proof.Claims

/-- The kernel program at the word level runs and leaves its arguments as launched. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at the two-layer function of the (agreeing) arguments: the kernel
    program by its run read back through its four stretches, the reference by its run read one operation at a time;
    the two programs' aggregations and transposes are the same operations, equal by unfolding. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v40_eq, h0, h1, h2, h3, h4, h5, h6, h7,
    Cert.ReferenceIdeal.RefValue.result_eq]
  rfl

end Cert.Proof.Claims

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, trivial, Claims.algebraic⟩

end Cert.Proof

end
